-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x200000 : Shape := ⟨2, ![2, 200000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64x64 .f32) (main_arg7 : FVec F S64x64 .f32) (main_arg8 : FVec F S64 .f32) (main_arg9 : FVec F S128x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S2x200000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S128x64 .f32) (main_arg10 : FVec F S64 .f32) (main_arg11 : FVec F S64x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S2x200000 : Shape := ⟨2, ![2, 200000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 88
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S1x200000, .i32⟩
  | .hbm, ⟨62, _⟩ => ⟨S200000, .i32⟩
  | .hbm, ⟨63, _⟩ => ⟨S1x200000, .i32⟩
  | .hbm, ⟨64, _⟩ => ⟨S200000, .i32⟩
  | .hbm, ⟨65, _⟩ => ⟨S_, .i32⟩
  | .hbm, ⟨66, _⟩ => ⟨S200000, .i32⟩
  | .hbm, ⟨67, _⟩ => ⟨S200000, .i1⟩
  | .hbm, ⟨68, _⟩ => ⟨S_, .i32⟩
  | .hbm, ⟨69, _⟩ => ⟨S200000, .i32⟩
  | .hbm, ⟨70, _⟩ => ⟨S200000, .i32⟩
  | .hbm, ⟨71, _⟩ => ⟨S200000, .i32⟩
  | .hbm, ⟨72, _⟩ => ⟨S200000x1, .i32⟩
  | .hbm, ⟨73, _⟩ => ⟨S200000x64, .f32⟩
  | .hbm, ⟨74, _⟩ => ⟨S_, .i32⟩
  | .hbm, ⟨75, _⟩ => ⟨S200000, .i32⟩
  | .hbm, ⟨76, _⟩ => ⟨S200000, .i1⟩
  | .hbm, ⟨77, _⟩ => ⟨S_, .i32⟩
  | .hbm, ⟨78, _⟩ => ⟨S200000, .i32⟩
  | .hbm, ⟨79, _⟩ => ⟨S200000, .i32⟩
  | .hbm, ⟨80, _⟩ => ⟨S200000, .i32⟩
  | .hbm, ⟨81, _⟩ => ⟨S200000x1, .i32⟩
  | .hbm, ⟨82, _⟩ => ⟨S200000x64, .f32⟩
  | .hbm, ⟨83, _⟩ => ⟨S200000x128, .f32⟩
  | .hbm, ⟨84, _⟩ => ⟨S1x64, .f32⟩
  | .hbm, ⟨85, _⟩ => ⟨S1x1, .f32⟩
  | .hbm, ⟨86, _⟩ => ⟨S200000x1, .f32⟩
  | .hbm, ⟨87, _⟩ => ⟨S200000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x128, .f32⟩
  | .local _ .vmem, ⟨19, _⟩ => ⟨S10000x128, .f32⟩
  | .local _ .vmem, ⟨20, _⟩ => ⟨S128x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  gather_S100000x64_S200000x1_S200000x64_1_0_n_n_0_1_164_wf : GatherDims.WF S100000x64 S200000x1 S200000x64 [1] [0] [] [0] [] 1 ![1, 64]
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S200000x128.size a
  hwx2_0 : ∀ i : grid2.Coords, EltTy.bits .f32 = 32 ∨ (Rect.block (s := S200000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S200000x1.size a
  hwx2_5 : ∀ i : grid2.Coords, EltTy.bits .f32 = 32 ∨ (Rect.block (s := S200000x1) S10000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x200000 : Shape := ⟨2, ![2, 200000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S1x200000, .i32⟩
  | .hbm, ⟨94, _⟩ => ⟨S200000, .i32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x64, .f32⟩
  | .hbm, ⟨104, _⟩ => ⟨S200000x128, .f32⟩
  | .hbm, ⟨105, _⟩ => ⟨S200000x64, .f32⟩
  | .hbm, ⟨106, _⟩ => ⟨S1x64, .f32⟩
  | .hbm, ⟨107, _⟩ => ⟨S200000x64, .f32⟩
  | .hbm, ⟨108, _⟩ => ⟨S200000x64, .f32⟩
  | .hbm, ⟨109, _⟩ => ⟨S_, .f32⟩
  | .hbm, ⟨110, _⟩ => ⟨S200000x64, .f32⟩
  | .hbm, ⟨111, _⟩ => ⟨S200000x64, .f32⟩
  | .hbm, ⟨112, _⟩ => ⟨S200000x1, .f32⟩
  | .hbm, ⟨113, _⟩ => ⟨S1x1, .f32⟩
  | .hbm, ⟨114, _⟩ => ⟨S200000x1, .f32⟩
  | .hbm, ⟨115, _⟩ => ⟨S200000x1, .f32⟩
  | .hbm, ⟨116, _⟩ => ⟨S200000x1, .f32⟩
  | .hbm, ⟨117, _⟩ => ⟨S200000x1, .f32⟩
  | .hbm, ⟨118, _⟩ => ⟨S_, .f32⟩
  | .hbm, ⟨119, _⟩ => ⟨S200000x1, .f32⟩
  | .hbm, ⟨120, _⟩ => ⟨S200000x1, .f32⟩
  | .hbm, ⟨121, _⟩ => ⟨S_, .f32⟩
  | .hbm, ⟨122, _⟩ => ⟨S200000x1, .f32⟩
  | .hbm, ⟨123, _⟩ => ⟨S200000x1, .f32⟩
  | .hbm, ⟨124, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call1_cst : Ref sig .tc := ⟨.hbm, 109, rfl⟩
abbrev main_call1_v0 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x128_d1 : Shape.Concatenates [S200000x64, S200000x64] S200000x128 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.Spec.lean ====
/-
  The mathematics of the three dense stages, as whole-array functions over the extended reals.

  A SAGE layer's dense stage takes the mean-aggregated neighbour features `mean` and the node features `x`
  (both N × K), two K × M weight matrices and a bias row, and returns at row `p`, column `q`
      (∑ₖ mean[p,k] · Wl[k,q]) + (∑ₖ x[p,k] · Wr[k,q]) + b[q],
  the first layer followed by `max · 0`. The link predictor takes the P × 2H matrix of paired node
  embeddings and returns, per pair, the logistic function `1 / (1 + exp (−logit))` of
      logit = (∑ⱼ max (∑ₖ pair[p,k] · W1[k,j] + b1[j]) 0 · W2[j,0]) + b2.
  Every sum is a finite sum in the order of the contraction index; no law of the extended reals is
  used beyond what the two programs share term for term.
-/
import Idealize.ShloMosaic.PureOps.Ideal
import Idealize.ShloMosaic.Lib.ValueIdx

noncomputable section

open scoped BigOperators

namespace Cert.Sage

open Idealize.ShloMosaic Idealize.ShloMosaic.ValueIdx

/-- The f32 words `0.0` and `1.0` as extended reals (never evaluated: both programs carry the same words). -/
abbrev zeroW : EReal := Ideal.ofBits .f32 0x00000000#32
abbrev oneW : EReal := Ideal.ofBits .f32 0x3F800000#32

/-- Row `i 0` of `a` against column `i 1` of `w`: the matrix product at an index. -/
def dense {N K M : Nat} (a : (⟨2, ![N, K]⟩ : Shape).Idx → EReal) (w : (⟨2, ![K, M]⟩ : Shape).Idx → EReal) :
    (⟨2, ![N, M]⟩ : Shape).Idx → EReal :=
  fun i => ∑ k : Fin K, a (ix2 (n0 := N) (n1 := K) (i 0) k) * w (ix2 (n0 := K) (n1 := M) k (i 1))

/-- A bias vector laid out as a one-row matrix. -/
def rowOf {M : Nat} (b : (⟨1, ![M]⟩ : Shape).Idx → EReal) : (⟨2, ![1, M]⟩ : Shape).Idx → EReal :=
  fun i => b (ix1 (n := M) (i 1))

/-- The dense stage of a SAGE layer without activation. -/
def combine {N K M : Nat} (mean x : (⟨2, ![N, K]⟩ : Shape).Idx → EReal) (Wl Wr : (⟨2, ![K, M]⟩ : Shape).Idx → EReal)
    (b : (⟨2, ![1, M]⟩ : Shape).Idx → EReal) : (⟨2, ![N, M]⟩ : Shape).Idx → EReal :=
  fun i => dense mean Wl i + dense x Wr i + b (ix2 (n0 := 1) (n1 := M) 0 (i 1))

/-- The dense stage of a SAGE layer followed by `max · 0`. -/
def combineRelu {N K M : Nat} (mean x : (⟨2, ![N, K]⟩ : Shape).Idx → EReal) (Wl Wr : (⟨2, ![K, M]⟩ : Shape).Idx → EReal)
    (b : (⟨2, ![1, M]⟩ : Shape).Idx → EReal) : (⟨2, ![N, M]⟩ : Shape).Idx → EReal :=
  fun i => max (combine mean x Wl Wr b i) zeroW

/-- The hidden layer of the link predictor: `max (pair · W1 + b1) 0`. -/
def hidden {P C H : Nat} (pair : (⟨2, ![P, C]⟩ : Shape).Idx → EReal) (W1 : (⟨2, ![C, H]⟩ : Shape).Idx → EReal)
    (b1 : (⟨2, ![1, H]⟩ : Shape).Idx → EReal) : (⟨2, ![P, H]⟩ : Shape).Idx → EReal :=
  fun j => max (dense pair W1 j + b1 (ix2 (n0 := 1) (n1 := H) 0 (j 1))) zeroW

/-- The link predictor: the logistic function of the second layer's logit, per pair. -/
def predict {P C H : Nat} (pair : (⟨2, ![P, C]⟩ : Shape).Idx → EReal) (W1 : (⟨2, ![C, H]⟩ : Shape).Idx → EReal)
    (b1 : (⟨2, ![1, H]⟩ : Shape).Idx → EReal) (W2 : (⟨2, ![H, 1]⟩ : Shape).Idx → EReal)
    (b2 : (⟨2, ![1, 1]⟩ : Shape).Idx → EReal) : (⟨2, ![P, 1]⟩ : Shape).Idx → EReal :=
  fun i => Ideal.div oneW (oneW + Ideal.exp (-(dense (hidden pair W1 b1) W2 i + b2 (ix2 (n0 := 1) (n1 := 1) 0 (i 1)))))

end Cert.Sage

end
-- ==== Proof.Model.lean ====
/-
  The whole computation as one function of the thirteen arguments, over the extended reals.

  Edges are (src, dst) pairs; a negative source index is read from the end (`src + N`). A node's aggregate is the sum
  of its in-neighbours' feature rows (a scatter-add of the gathered source rows at the destination indices into a zero
  array), divided by `max count 1` where `count` is the node's in-degree (a scatter-add of ones). Two SAGE layers
  follow, each the dense stage of the specification on (mean aggregate, features), the first with `max · 0`; then the
  two endpoints' embeddings of every candidate pair are gathered and laid side by side, and the link predictor maps
  each pair to a probability. The gathers, scatter-adds, division and concatenation are the host's operations, taken
  whole: both programs apply the same ones to the same operands, so nothing about them is ever opened.
-/
import proofs.«177119_j21199958573768_1_alg».proof.KernelIdeal
import proofs.«177119_j21199958573768_1_alg».proof.Proof.Gen.KernelIdeal
import proofs.«177119_j21199958573768_1_alg».proof.Proof.Spec

noncomputable section

namespace Cert.Sage

open Cert.KernelIdeal Cert.KernelIdeal.Gen Idealize.ShloMosaic

/-- Row `r` of the edge list, as a vector of 1600000 node indices. -/
def edgeRow0 (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
def edgeRow1 (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The in-degree normaliser `max count 1`, as a column. -/
def cntCol (ei : (⟨S2x1600000, .i32⟩ : BufTy).Contents (Elt Ideal)) : (⟨S100000x1, .f32⟩ : BufTy).Contents (Elt Ideal) :=
  broadcastInDim S100000x1 ![0] bcast_S100000_S100000x1_0
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (edgeRow1 ei))
        (broadcastInDim S1600000 ![] bcast_S_S1600000 (constant (F := Ideal) S_ .f32 0x3F800000#32)))
      (broadcastInDim S100000 ![] bcast_S_S100000 (constant (F := Ideal) S_ .f32 0x3F800000#32)))

/-- The source indices with a negative index read from the end, as gather start indices. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (edgeRow0 ei) (broadcastInDim S1600000 ![] bcast_S_S1600000 (constantI S_ 32 0#32)))
      (addi (edgeRow0 ei) (broadcastInDim S1600000 ![] bcast_S_S1600000 (constantI S_ 32 100000#32)))
      (edgeRow0 ei))

/-- The mean of the in-neighbours' rows of `h`. -/
def meanAgg (h : (⟨S100000x64, .f32⟩ : BufTy).Contents (Elt Ideal)) (ei : (⟨S2x1600000, .i32⟩ : BufTy).Contents (Elt Ideal)) : (⟨S100000x64, .f32⟩ : BufTy).Contents (Elt Ideal) :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (edgeRow1 ei))
      (Host.gather gather_S100000x64_S1600000x1_S1600000x64_1_0_n_n_0_1_164 h (srcIdx ei)))
    (broadcastInDim S100000x64 ![0, 1] bcast_S100000x1_S100000x64_0_1 (cntCol ei))

/-- Row `r` of the candidate-pair list with a negative index read from the end, as gather start indices. -/
def pairRow0 (ep : (⟨S2x200000, .i32⟩ : BufTy).Contents (Elt Ideal)) : (⟨S200000, .i32⟩ : BufTy).Contents (Elt Ideal) :=
  shapeCast _ (extractStridedSlice S1x200000 ![0, 0] ep slices_S2x200000_S1x200000_0_0) shapeCasts_S1x200000_S200000
def pairRow1 (ep : (⟨S2x200000, .i32⟩ : BufTy).Contents (Elt Ideal)) : (⟨S200000, .i32⟩ : BufTy).Contents (Elt Ideal) :=
  shapeCast _ (extractStridedSlice S1x200000 ![1, 0] ep slices_S2x200000_S1x200000_1_0) shapeCasts_S1x200000_S200000
def wrapIdx (v : (⟨S200000, .i32⟩ : BufTy).Contents (Elt Ideal)) : (⟨S200000x1, .i32⟩ : BufTy).Contents (Elt Ideal) :=
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32)))
      v)

/-- The two endpoints' embeddings of every candidate pair, side by side. -/
def pairOf (h : (⟨S100000x64, .f32⟩ : BufTy).Contents (Elt Ideal)) (ep : (⟨S2x200000, .i32⟩ : BufTy).Contents (Elt Ideal)) : (⟨S200000x128, .f32⟩ : BufTy).Contents (Elt Ideal) :=
  concatenate S200000x128 1
    [⟨S200000x64, Host.gather gather_S100000x64_S200000x1_S200000x64_1_0_n_n_0_1_164 h (wrapIdx (pairRow0 ep))⟩,
     ⟨S200000x64, Host.gather gather_S100000x64_S200000x1_S200000x64_1_0_n_n_0_1_164 h (wrapIdx (pairRow1 ep))⟩]
    concatenates_S200000x64_S200000x64_S200000x128_d1

/-- The first SAGE layer's node embeddings. -/
def layer1 (x : (⟨S100000x64, .f32⟩ : BufTy).Contents (Elt Ideal)) (ei : (⟨S2x1600000, .i32⟩ : BufTy).Contents (Elt Ideal)) (W1l W1r : (⟨S64x64, .f32⟩ : BufTy).Contents (Elt Ideal))
    (b1 : (⟨S64, .f32⟩ : BufTy).Contents (Elt Ideal)) : (⟨S100000x64, .f32⟩ : BufTy).Contents (Elt Ideal) :=
  combineRelu (meanAgg x ei) x W1l W1r (shapeCast S1x64 b1 shapeCasts_S64_S1x64)

/-- The second SAGE layer's node embeddings. -/
def layer2 (h : (⟨S100000x64, .f32⟩ : BufTy).Contents (Elt Ideal)) (ei : (⟨S2x1600000, .i32⟩ : BufTy).Contents (Elt Ideal)) (W2l W2r : (⟨S64x64, .f32⟩ : BufTy).Contents (Elt Ideal))
    (b2 : (⟨S64, .f32⟩ : BufTy).Contents (Elt Ideal)) : (⟨S100000x64, .f32⟩ : BufTy).Contents (Elt Ideal) :=
  combine (meanAgg h ei) h W2l W2r (shapeCast S1x64 b2 shapeCasts_S64_S1x64)

/-- The link probabilities of the candidate pairs. -/
def result (x : (⟨S100000x64, .f32⟩ : BufTy).Contents (Elt Ideal)) (ei : (⟨S2x1600000, .i32⟩ : BufTy).Contents (Elt Ideal)) (ep : (⟨S2x200000, .i32⟩ : BufTy).Contents (Elt Ideal))
    (W1l W1r : (⟨S64x64, .f32⟩ : BufTy).Contents (Elt Ideal)) (b1 : (⟨S64, .f32⟩ : BufTy).Contents (Elt Ideal)) (W2l W2r : (⟨S64x64, .f32⟩ : BufTy).Contents (Elt Ideal)) (b2 : (⟨S64, .f32⟩ : BufTy).Contents (Elt Ideal))
    (Wp1 : (⟨S128x64, .f32⟩ : BufTy).Contents (Elt Ideal)) (bp1 : (⟨S64, .f32⟩ : BufTy).Contents (Elt Ideal)) (Wp2 : (⟨S64x1, .f32⟩ : BufTy).Contents (Elt Ideal)) (bp2 : (⟨S1, .f32⟩ : BufTy).Contents (Elt Ideal)) :
    (⟨S200000, .f32⟩ : BufTy).Contents (Elt Ideal) :=
  shapeCast S200000
    (predict (pairOf (layer2 (layer1 x ei W1l W1r b1) ei W2l W2r b2) ep) Wp1 (shapeCast S1x64 bp1 shapeCasts_S64_S1x64)
      Wp2 (shapeCast S1x1 bp2 shapeCasts_S1_S1x1))
    shapeCasts_S200000x1_S200000

end Cert.Sage

end
-- ==== Proof.Payload.lean ====
/-
  The three kernel bodies' stored values, at the ideal instance, are the dense stages of the specification applied
  to the loaded blocks: a cast to a narrower float format is the identity on the extended reals, a matrix product
  into a zero accumulator is the plain sum over the contraction index, a bias row is broadcast down the rows.
-/
import proofs.«177119_j21199958573768_1_alg».proof.Proof.Spec
import proofs.«177119_j21199958573768_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Sage

open Cert.KernelIdeal Cert.KernelIdeal.Gen Idealize.ShloMosaic Idealize.ShloMosaic.ValueIdx

/-! ### Pointwise and layout readings used below -/

/-- A cast to a narrower float format is the identity on the extended reals, as a whole array. -/
theorem truncf_eq {s : Shape} {φ ψ : FTy} (a : FVec Ideal s φ) (h : ψ.bits < φ.bits) :
    (truncf ψ a h : FVec Ideal s ψ) = a := rfl

/-- The exponential of an array, read at an index. -/
theorem exp_apply {s : Shape} {φ : FTy} (a : FVec Ideal s φ) (i : s.Idx) : exp a i = Ideal.exp (a i) := rfl

/-- A one-row matrix broadcast down `N` rows reads, at `i`, the row at column `i 1`. -/
theorem bias_apply {N M : Nat} {α : Type} (v : (⟨2, ![1, M]⟩ : Shape).Idx → α)
    (h : (⟨2, ![1, M]⟩ : Shape).Broadcasts ⟨2, ![N, M]⟩) (i : (⟨2, ![N, M]⟩ : Shape).Idx) :
    broadcastTo ⟨2, ![N, M]⟩ v h i = v (ix2 (n0 := 1) (n1 := M) 0 (i 1)) := by
  refine broadcastTo_apply v h i (ix2 (n0 := 1) (n1 := M) 0 (i 1)) fun ax => ?_
  match ax with
  | ⟨0, _⟩ => rfl
  | ⟨1, _⟩ =>
    show (i 1).val = if M = 1 then 0 else (i 1).val
    split
    · have := idx2_lt1 i; omega
    · rfl

/-! ### The operand indices of `dot_S10000x64_S64x64_S10000x64_1_0_0_1_n_n`, coordinate by coordinate -/

theorem lhs_a_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_a_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_a_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_a_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000 × 64 by 64 × 64 product into the zero accumulator is the plain sum over the contraction index. -/
theorem matmul_a {φ₁ φ₂ : FTy} (lhs : FVec Ideal S10000x64 φ₁) (rhs : FVec Ideal S64x64 φ₂) (i : S10000x64.Idx) :
    matmul dot_S10000x64_S64x64_S10000x64_1_0_0_1_n_n none lhs rhs (constant (F := Ideal) S10000x64 .f32 0x00000000#32) i = dense lhs rhs i := by
  unfold dense
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = ix2 (i 0) k := funext fun a => Fin.ext (by
    match a with
    | ⟨0, _⟩ => exact lhs_a_0 _ _
    | ⟨1, _⟩ => exact (lhs_a_1 _ _).trans hk)
  have er : dot_S10000x64_S64x64_S10000x64_1_0_0_1_n_n.rhsIdx i ((ValueIdx.contrEquiv1 dot_S10000x64_S64x64_S10000x64_1_0_0_1_n_n 64 rfl rfl).symm k) = ix2 k (i 1) := funext fun a => Fin.ext (by
    match a with
    | ⟨0, _⟩ => exact (rhs_a_0 _ _).trans hk
    | ⟨1, _⟩ => exact rhs_a_1 _ _)
  rw [el, er]
  rfl

/-! ### The operand indices of `dot_S10000x128_S128x64_S10000x64_1_0_0_1_n_n`, coordinate by coordinate -/

theorem lhs_b_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_b_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_b_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_b_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A 10000 × 128 by 128 × 64 product into the zero accumulator is the plain sum over the contraction index. -/
theorem matmul_b {φ₁ φ₂ : FTy} (lhs : FVec Ideal S10000x128 φ₁) (rhs : FVec Ideal S128x64 φ₂) (i : S10000x64.Idx) :
    matmul dot_S10000x128_S128x64_S10000x64_1_0_0_1_n_n none lhs rhs (constant (F := Ideal) S10000x64 .f32 0x00000000#32) i = dense lhs rhs i := by
  unfold dense
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = ix2 (i 0) k := funext fun a => Fin.ext (by
    match a with
    | ⟨0, _⟩ => exact lhs_b_0 _ _
    | ⟨1, _⟩ => exact (lhs_b_1 _ _).trans hk)
  have er : dot_S10000x128_S128x64_S10000x64_1_0_0_1_n_n.rhsIdx i ((ValueIdx.contrEquiv1 dot_S10000x128_S128x64_S10000x64_1_0_0_1_n_n 128 rfl rfl).symm k) = ix2 k (i 1) := funext fun a => Fin.ext (by
    match a with
    | ⟨0, _⟩ => exact (rhs_b_0 _ _).trans hk
    | ⟨1, _⟩ => exact rhs_b_1 _ _)
  rw [el, er]
  rfl

/-! ### The operand indices of `dot_S10000x64_S64x1_S10000x1_1_0_0_1_n_n`, coordinate by coordinate -/

theorem lhs_c_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_c_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_c_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_c_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- A 10000 × 64 by 64 × 1 product into the zero accumulator is the plain sum over the contraction index. -/
theorem matmul_c {φ₁ φ₂ : FTy} (lhs : FVec Ideal S10000x64 φ₁) (rhs : FVec Ideal S64x1 φ₂) (i : S10000x1.Idx) :
    matmul dot_S10000x64_S64x1_S10000x1_1_0_0_1_n_n none lhs rhs (constant (F := Ideal) S10000x1 .f32 0x00000000#32) i = dense lhs rhs i := by
  unfold dense
  simp only [matmul]
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx i ((ValueIdx.contrEquiv1 dot_S10000x64_S64x1_S10000x1_1_0_0_1_n_n 64 rfl rfl).symm k) = ix2 (i 0) k := funext fun a => Fin.ext (by
    match a with
    | ⟨0, _⟩ => exact lhs_c_0 _ _
    | ⟨1, _⟩ => exact (lhs_c_1 _ _).trans hk)
  have er : dot_S10000x64_S64x1_S10000x1_1_0_0_1_n_n.rhsIdx i ((ValueIdx.contrEquiv1 dot_S10000x64_S64x1_S10000x1_1_0_0_1_n_n 64 rfl rfl).symm k) = ix2 k (i 1) := funext fun a => Fin.ext (by
    match a with
    | ⟨0, _⟩ => exact (rhs_c_0 _ _).trans hk
    | ⟨1, _⟩ => exact rhs_c_1 _ _)
  rw [el, er]
  rfl

/-! ### The three stored values -/

/-- Layer 1's body: `max (mean·Wl + x·Wr + b) 0` of its five loaded blocks. -/
theorem pay0 (x0 x1 : Vec Ideal S10000x64 .f32) (x2 x3 : Vec Ideal S64x64 .f32) (x4 : Vec Ideal S1x64 .f32) :
    k0_pay1 (F := Ideal) x0 x1 x2 x3 x4 = combineRelu x0 x1 x2 x3 x4 := by
  funext i
  unfold k0_pay1 combineRelu combine
  rw [maximumf_apply, addf_apply, addf_apply, matmul_a, matmul_a, bias_apply, broadcast_apply,
    shapeCast_self, shapeCast_self]
  rfl

/-- Layer 2's body: `mean·Wl + x·Wr + b` of its five loaded blocks. -/
theorem pay1 (x0 x1 : Vec Ideal S10000x64 .f32) (x2 x3 : Vec Ideal S64x64 .f32) (x4 : Vec Ideal S1x64 .f32) :
    k1_pay1 (F := Ideal) x0 x1 x2 x3 x4 = combine x0 x1 x2 x3 x4 := by
  funext i
  unfold k1_pay1 combine
  rw [addf_apply, addf_apply, matmul_a, matmul_a, bias_apply, shapeCast_self, shapeCast_self, shapeCast_self]
  rfl

/-- The predictor's hidden layer as the kernel writes it: `max (pair·W1 + b1) 0`. -/
theorem hidden_pay (x0 : Vec Ideal S10000x128 .f32) (x1 : Vec Ideal S128x64 .f32) (x2 : Vec Ideal S1x64 .f32) :
    (maximumf
      (addf
        (matmul dot_S10000x128_S128x64_S10000x64_1_0_0_1_n_n none
          (truncf .bf16 (shapeCast S10000x128 x0 shapeCasts_S10000x128_S10000x128) bitsLt_bf16_f32)
          (truncf .bf16 x1 bitsLt_bf16_f32) (constant (F := Ideal) S10000x64 .f32 0x00000000#32))
        (broadcastTo S10000x64 (shapeCast S1x64 x2 shapeCasts_S1x64_S1x64) broadcasts_S1x64_S10000x64))
      (broadcast S10000x64 (Scalar.ofBits (F := Ideal) .f32 0x00000000#32)) : FVec Ideal S10000x64 .f32)
      = hidden x0 x1 x2 := by
  funext j
  unfold hidden
  rw [maximumf_apply, addf_apply, matmul_b, bias_apply, broadcast_apply, shapeCast_self, shapeCast_self]
  rfl

/-- The predictor's body: the logistic function of the two-layer logit of its loaded blocks. -/
theorem pay2 (x0 : Vec Ideal S10000x128 .f32) (x1 : Vec Ideal S128x64 .f32) (x2 : Vec Ideal S1x64 .f32)
    (x3 : Vec Ideal S64x1 .f32) (x4 : Vec Ideal S1x1 .f32) :
    k2_pay1 (F := Ideal) x0 x1 x2 x3 x4 = predict x0 x1 x2 x3 x4 := by
  funext i
  unfold k2_pay1 predict
  rw [hidden_pay]
  rw [divf_apply, addf_apply, exp_apply, subf_apply, addf_apply, matmul_c, bias_apply, broadcast_apply, broadcast_apply,
    shapeCast_self]
  rw [Ideal.ofBits_def, Ideal.ofBits_def, Ideal.ofBits_zero_f32, zero_sub]
  rfl

end Cert.Sage

end
-- ==== Proof.Region0.lean ====
/-
  Region 0: the output array after the pipelined run is combineRelu of the arrays the region finds at its entry.
  Point `t` of the grid reads rows [10000·t, 10000·(t+1)) of the row-blocked operands and the small operands whole, and
  writes back the same rows of the output; a row of the dense stage depends on that row of the operands only, so what
  a point writes back is the block of the whole-array function, and the grid's blocks tile the output.
-/
import proofs.«177119_j21199958573768_1_alg».proof.Proof.Spec
import proofs.«177119_j21199958573768_1_alg».proof.Proof.Gen.KernelIdeal.Frame
import proofs.«177119_j21199958573768_1_alg».proof.Proof.Payload
import Idealize.ShloMosaic.Lib.Pipeline.Value

noncomputable section

open scoped BigOperators

namespace Cert.Sage

open Cert.KernelIdeal Cert.KernelIdeal.Gen Idealize.ShloMosaic Idealize.ShloMosaic.TcCoe Idealize.ShloMosaic.ValueIdx Idealize.SL.Sem

namespace Region0

/-- The zero block offset, as the constant function. -/
theorem zero_off : (![0, 0] : Fin 2 → Nat) = fun _ => 0 :=
  funext fun a => match a with | ⟨0, _⟩ => rfl | ⟨1, _⟩ => rfl

/-- A row of the dense stage reads that row of the row operands and the small operands' columns only: where a block's
    row `j 0` is the array's row `e 0`, and the small operands agree at the columns `j 1` and `e 1`, the stage's
    values at `j` and at `e` agree. -/
theorem combine_row {N n K M : Nat}
    (mean x : (⟨2, ![N, K]⟩ : Shape).Idx → EReal) (Wl Wr : (⟨2, ![K, M]⟩ : Shape).Idx → EReal) (b : (⟨2, ![1, M]⟩ : Shape).Idx → EReal)
    (mean' x' : (⟨2, ![n, K]⟩ : Shape).Idx → EReal) (Wl' Wr' : (⟨2, ![K, M]⟩ : Shape).Idx → EReal) (b' : (⟨2, ![1, M]⟩ : Shape).Idx → EReal)
    (j : (⟨2, ![n, M]⟩ : Shape).Idx) (e : (⟨2, ![N, M]⟩ : Shape).Idx)
    (h0 : ∀ k : Fin K, mean' (ix2 (j 0) k) = mean (ix2 (e 0) k))
    (h1 : ∀ k : Fin K, x' (ix2 (j 0) k) = x (ix2 (e 0) k))
    (h2 : ∀ k : Fin K, Wl' (ix2 k (j 1)) = Wl (ix2 k (e 1)))
    (h3 : ∀ k : Fin K, Wr' (ix2 k (j 1)) = Wr (ix2 k (e 1)))
    (h4 : b' (ix2 0 (j 1)) = b (ix2 0 (e 1))) :
    combineRelu mean' x' Wl' Wr' b' j = combineRelu mean x Wl Wr b e := by
  have el : dense mean' Wl' j = dense mean Wl e := Finset.sum_congr rfl fun k _ => by rw [h0 k, h2 k]
  have er : dense x' Wr' j = dense x Wr e := Finset.sum_congr rfl fun k _ => by rw [h1 k, h3 k]
  unfold combineRelu combine
  rw [el, er, h4]

/-- The printed index maps, decided over the grid: the row-blocked windows move with the output window along the rows
    and stay at column block 0, the small windows stay at block (0, 0), and the output's row block index is the point. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block of the output is some point's. -/
theorem idx_onto : ∀ q : Fin 10, ∃ t : Fin cfg0.N, win0_5.index t = ![q.val, 0] :=
  (by decide +kernel : ∀ q : Fin 10, ∃ t : Fin grid0.N, win0_5.index t = ![q.val, 0])

/-- Where an element of the output's block at point `t` sits in the array: row `10000·t` plus its row, its own column. -/
theorem out_emb (t : Fin cfg0.N) (j : S10000x64.Idx) :
    ((((cfg0.win 5).blk t).view.emb j) 0).val = 10000 * t.val + (j 0).val
      ∧ ((((cfg0.win 5).blk t).view.emb j) 1).val = (j 1).val := by
  obtain ⟨_, _, _, _, _, _, _, _, _, _, e50, e51⟩ := idx_facts t
  constructor
  · show win0_5.index t (0 : Fin 2) * 10000 + 1 * (j 0).val = _
    omega
  · show win0_5.index t (1 : Fin 2) * 64 + 1 * (j 1).val = _
    omega

end Region0

variable (V : (c : Dev nD) → (b : Ref sig .tc) → Buf (Elt Ideal) ((c : Thread nD τ).loc b))

namespace Region0

/-- The first row operand's block at point `t` is rows `10000·t …` of its array. -/
theorem blk0_apply (c : Dev nD) (t : Fin cfg0.N) (x : S10000x64.Idx) (i : S100000x64.Idx)
    (h0 : (i 0).val = 10000 * t.val + (x 0).val) (h1 : (i 1).val = (x 1).val) :
    (iblk0 V c 0 t : Vec Ideal S10000x64 .f32) x = (V c main_v22 : S100000x64.Idx → EReal) i := by
  obtain ⟨e00, e01, _, _, _, _, _, _, _, _, e50, _⟩ := idx_facts t
  unfold iblk0
  rw [View.read_apply]
  show V c main_v22 _ = V c main_v22 _
  congr 1
  funext a
  apply Fin.ext
  match a with
  | ⟨0, _⟩ => show win0_0.index t (0 : Fin 2) * 10000 + 1 * (x 0).val = (i 0).val; omega
  | ⟨1, _⟩ => show win0_0.index t (1 : Fin 2) * 64 + 1 * (x 1).val = (i 1).val; omega

/-- The second row operand's block at point `t` is rows `10000·t …` of its array. -/
theorem blk1_apply (c : Dev nD) (t : Fin cfg0.N) (x : S10000x64.Idx) (i : S100000x64.Idx)
    (h0 : (i 0).val = 10000 * t.val + (x 0).val) (h1 : (i 1).val = (x 1).val) :
    (iblk0 V c 1 t : Vec Ideal S10000x64 .f32) x = (V c main_arg0 : S100000x64.Idx → EReal) i := by
  obtain ⟨_, _, e10, e11, _, _, _, _, _, _, e50, _⟩ := idx_facts t
  unfold iblk0
  rw [View.read_apply]
  show V c main_arg0 _ = V c main_arg0 _
  congr 1
  funext a
  apply Fin.ext
  match a with
  | ⟨0, _⟩ => show win0_1.index t (0 : Fin 2) * 10000 + 1 * (x 0).val = (i 0).val; omega
  | ⟨1, _⟩ => show win0_1.index t (1 : Fin 2) * 64 + 1 * (x 1).val = (i 1).val; omega

/-- The first weight window's block is the whole weight matrix. -/
theorem blk2_apply (c : Dev nD) (t : Fin cfg0.N) (x i : S64x64.Idx)
    (h0 : (i 0).val = (x 0).val) (h1 : (i 1).val = (x 1).val) :
    (iblk0 V c 2 t : Vec Ideal S64x64 .f32) x = (V c main_arg3 : S64x64.Idx → EReal) i := by
  obtain ⟨_, _, _, _, e20, e21, _, _, _, _, _, _⟩ := idx_facts t
  unfold iblk0
  rw [View.read_apply]
  show V c main_arg3 _ = V c main_arg3 _
  congr 1
  funext a
  apply Fin.ext
  match a with
  | ⟨0, _⟩ => show win0_2.index t (0 : Fin 2) * 64 + 1 * (x 0).val = (i 0).val; omega
  | ⟨1, _⟩ => show win0_2.index t (1 : Fin 2) * 64 + 1 * (x 1).val = (i 1).val; omega

/-- The second weight window's block is the whole weight matrix. -/
theorem blk3_apply (c : Dev nD) (t : Fin cfg0.N) (x i : S64x64.Idx)
    (h0 : (i 0).val = (x 0).val) (h1 : (i 1).val = (x 1).val) :
    (iblk0 V c 3 t : Vec Ideal S64x64 .f32) x = (V c main_arg4 : S64x64.Idx → EReal) i := by
  obtain ⟨_, _, _, _, _, _, e30, e31, _, _, _, _⟩ := idx_facts t
  unfold iblk0
  rw [View.read_apply]
  show V c main_arg4 _ = V c main_arg4 _
  congr 1
  funext a
  apply Fin.ext
  match a with
  | ⟨0, _⟩ => show win0_3.index t (0 : Fin 2) * 64 + 1 * (x 0).val = (i 0).val; omega
  | ⟨1, _⟩ => show win0_3.index t (1 : Fin 2) * 64 + 1 * (x 1).val = (i 1).val; omega

/-- The bias window's block is the whole bias row. -/
theorem blk4_apply (c : Dev nD) (t : Fin cfg0.N) (x i : S1x64.Idx)
    (h0 : (i 0).val = (x 0).val) (h1 : (i 1).val = (x 1).val) :
    (iblk0 V c 4 t : Vec Ideal S1x64 .f32) x = (V c main_v23 : S1x64.Idx → EReal) i := by
  obtain ⟨_, _, _, _, _, _, _, _, e40, e41, _, _⟩ := idx_facts t
  unfold iblk0
  rw [View.read_apply]
  show V c main_v23 _ = V c main_v23 _
  congr 1
  funext a
  apply Fin.ext
  match a with
  | ⟨0, _⟩ => show win0_4.index t (0 : Fin 2) * 1 + 1 * (x 0).val = (i 0).val; omega
  | ⟨1, _⟩ => show win0_4.index t (1 : Fin 2) * 64 + 1 * (x 1).val = (i 1).val; omega

/-- What point `t` writes back is block `t` of combineRelu of the arrays as the region finds them. -/
theorem flushed_eq (c : Dev nD) (t : Fin cfg0.N) :
    (dat0 (F := Ideal) V c).flushed 5 t = ((cfg0.win 5).blk t).view.read (Elt Ideal)
      (combineRelu (V c main_v22) (V c main_arg0) (V c main_arg3) (V c main_arg4) (V c main_v23)) := by
  show (cfg0.win 5).cut (grid0.coords t) ((dat0 (F := Ideal) V c).after 5 t) = _
  rw [after0_5]
  unfold out0_5
  rw [View.canon_unit_zero zero_off]
  simp only [View.ld_unit_zero (S := S10000x64) zero_off, View.ld_unit_zero (S := S64x64) zero_off, View.ld_unit_zero (S := S1x64) zero_off]
  rw [pay0]
  funext j
  rw [View.read_apply]
  obtain ⟨he0, he1⟩ := out_emb t j
  exact combine_row (N := 100000) (n := 10000) (K := 64) (M := 64)
    (V c main_v22) (V c main_arg0) (V c main_arg3) (V c main_arg4) (V c main_v23)
    (iblk0 V c 0 t) (iblk0 V c 1 t) (iblk0 V c 2 t) (iblk0 V c 3 t) (iblk0 V c 4 t)
    j (((cfg0.win 5).blk t).view.emb j)
    (fun k => blk0_apply V c t _ _ he0 rfl)
    (fun k => blk1_apply V c t _ _ he0 rfl)
    (fun k => blk2_apply V c t _ _ rfl he1)
    (fun k => blk3_apply V c t _ _ rfl he1)
    (blk4_apply V c t _ _ rfl he1)

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v24).slice (win0_5.rect t)).set ↔ _
  rw [View.set_slice_whole, Rect.mem_set_unit]
  exact Iff.rfl

/-- The ten row blocks tile the output: row `r` is in the block of point `r / 10000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

end Region0

/-- The region's output array, whatever contents `V` the region is entered at. -/
theorem final0 (c : Dev nD) :
    (dat0 (F := Ideal) V c).arrAt 5 cfg0.N = combineRelu (V c main_v22) (V c main_arg0) (V c main_arg3) (V c main_arg4) (V c main_v23) :=
  (dat0 (F := Ideal) V c).arrAt_eq_of_cover 5
    (combineRelu (V c main_v22) (V c main_arg0) (V c main_arg3) (V c main_arg4) (V c main_v23))
    (fun t _ => Region0.flushed_eq V c t) Region0.cover

end Cert.Sage

end
-- ==== Proof.Region1.lean ====
/-
  Region 1: the output array after the pipelined run is combine of the arrays the region finds at its entry.
  Point `t` of the grid reads rows [10000·t, 10000·(t+1)) of the row-blocked operands and the small operands whole, and
  writes back the same rows of the output; a row of the dense stage depends on that row of the operands only, so what
  a point writes back is the block of the whole-array function, and the grid's blocks tile the output.
-/
import proofs.«177119_j21199958573768_1_alg».proof.Proof.Spec
import proofs.«177119_j21199958573768_1_alg».proof.Proof.Gen.KernelIdeal.Frame
import proofs.«177119_j21199958573768_1_alg».proof.Proof.Payload
import Idealize.ShloMosaic.Lib.Pipeline.Value

noncomputable section

open scoped BigOperators

namespace Cert.Sage

open Cert.KernelIdeal Cert.KernelIdeal.Gen Idealize.ShloMosaic Idealize.ShloMosaic.TcCoe Idealize.ShloMosaic.ValueIdx Idealize.SL.Sem

namespace Region1

/-- The zero block offset, as the constant function. -/
theorem zero_off : (![0, 0] : Fin 2 → Nat) = fun _ => 0 :=
  funext fun a => match a with | ⟨0, _⟩ => rfl | ⟨1, _⟩ => rfl

/-- A row of the dense stage reads that row of the row operands and the small operands' columns only: where a block's
    row `j 0` is the array's row `e 0`, and the small operands agree at the columns `j 1` and `e 1`, the stage's
    values at `j` and at `e` agree. -/
theorem combine_row {N n K M : Nat}
    (mean x : (⟨2, ![N, K]⟩ : Shape).Idx → EReal) (Wl Wr : (⟨2, ![K, M]⟩ : Shape).Idx → EReal) (b : (⟨2, ![1, M]⟩ : Shape).Idx → EReal)
    (mean' x' : (⟨2, ![n, K]⟩ : Shape).Idx → EReal) (Wl' Wr' : (⟨2, ![K, M]⟩ : Shape).Idx → EReal) (b' : (⟨2, ![1, M]⟩ : Shape).Idx → EReal)
    (j : (⟨2, ![n, M]⟩ : Shape).Idx) (e : (⟨2, ![N, M]⟩ : Shape).Idx)
    (h0 : ∀ k : Fin K, mean' (ix2 (j 0) k) = mean (ix2 (e 0) k))
    (h1 : ∀ k : Fin K, x' (ix2 (j 0) k) = x (ix2 (e 0) k))
    (h2 : ∀ k : Fin K, Wl' (ix2 k (j 1)) = Wl (ix2 k (e 1)))
    (h3 : ∀ k : Fin K, Wr' (ix2 k (j 1)) = Wr (ix2 k (e 1)))
    (h4 : b' (ix2 0 (j 1)) = b (ix2 0 (e 1))) :
    combine mean' x' Wl' Wr' b' j = combine mean x Wl Wr b e := by
  have el : dense mean' Wl' j = dense mean Wl e := Finset.sum_congr rfl fun k _ => by rw [h0 k, h2 k]
  have er : dense x' Wr' j = dense x Wr e := Finset.sum_congr rfl fun k _ => by rw [h1 k, h3 k]
  unfold combine
  rw [el, er, h4]

/-- The printed index maps, decided over the grid: the row-blocked windows move with the output window along the rows
    and stay at column block 0, the small windows stay at block (0, 0), and the output's row block index is the point. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block of the output is some point's. -/
theorem idx_onto : ∀ q : Fin 10, ∃ t : Fin cfg1.N, win1_5.index t = ![q.val, 0] :=
  (by decide +kernel : ∀ q : Fin 10, ∃ t : Fin grid1.N, win1_5.index t = ![q.val, 0])

/-- Where an element of the output's block at point `t` sits in the array: row `10000·t` plus its row, its own column. -/
theorem out_emb (t : Fin cfg1.N) (j : S10000x64.Idx) :
    ((((cfg1.win 5).blk t).view.emb j) 0).val = 10000 * t.val + (j 0).val
      ∧ ((((cfg1.win 5).blk t).view.emb j) 1).val = (j 1).val := by
  obtain ⟨_, _, _, _, _, _, _, _, _, _, e50, e51⟩ := idx_facts t
  constructor
  · show win1_5.index t (0 : Fin 2) * 10000 + 1 * (j 0).val = _
    omega
  · show win1_5.index t (1 : Fin 2) * 64 + 1 * (j 1).val = _
    omega

end Region1

variable (V : (c : Dev nD) → (b : Ref sig .tc) → Buf (Elt Ideal) ((c : Thread nD τ).loc b))

namespace Region1

/-- The first row operand's block at point `t` is rows `10000·t …` of its array. -/
theorem blk0_apply (c : Dev nD) (t : Fin cfg1.N) (x : S10000x64.Idx) (i : S100000x64.Idx)
    (h0 : (i 0).val = 10000 * t.val + (x 0).val) (h1 : (i 1).val = (x 1).val) :
    (iblk1 V c 0 t : Vec Ideal S10000x64 .f32) x = (V c main_v36 : S100000x64.Idx → EReal) i := by
  obtain ⟨e00, e01, _, _, _, _, _, _, _, _, e50, _⟩ := idx_facts t
  unfold iblk1
  rw [View.read_apply]
  show V c main_v36 _ = V c main_v36 _
  congr 1
  funext a
  apply Fin.ext
  match a with
  | ⟨0, _⟩ => show win1_0.index t (0 : Fin 2) * 10000 + 1 * (x 0).val = (i 0).val; omega
  | ⟨1, _⟩ => show win1_0.index t (1 : Fin 2) * 64 + 1 * (x 1).val = (i 1).val; omega

/-- The second row operand's block at point `t` is rows `10000·t …` of its array. -/
theorem blk1_apply (c : Dev nD) (t : Fin cfg1.N) (x : S10000x64.Idx) (i : S100000x64.Idx)
    (h0 : (i 0).val = 10000 * t.val + (x 0).val) (h1 : (i 1).val = (x 1).val) :
    (iblk1 V c 1 t : Vec Ideal S10000x64 .f32) x = (V c main_v24 : S100000x64.Idx → EReal) i := by
  obtain ⟨_, _, e10, e11, _, _, _, _, _, _, e50, _⟩ := idx_facts t
  unfold iblk1
  rw [View.read_apply]
  show V c main_v24 _ = V c main_v24 _
  congr 1
  funext a
  apply Fin.ext
  match a with
  | ⟨0, _⟩ => show win1_1.index t (0 : Fin 2) * 10000 + 1 * (x 0).val = (i 0).val; omega
  | ⟨1, _⟩ => show win1_1.index t (1 : Fin 2) * 64 + 1 * (x 1).val = (i 1).val; omega

/-- The first weight window's block is the whole weight matrix. -/
theorem blk2_apply (c : Dev nD) (t : Fin cfg1.N) (x i : S64x64.Idx)
    (h0 : (i 0).val = (x 0).val) (h1 : (i 1).val = (x 1).val) :
    (iblk1 V c 2 t : Vec Ideal S64x64 .f32) x = (V c main_arg6 : S64x64.Idx → EReal) i := by
  obtain ⟨_, _, _, _, e20, e21, _, _, _, _, _, _⟩ := idx_facts t
  unfold iblk1
  rw [View.read_apply]
  show V c main_arg6 _ = V c main_arg6 _
  congr 1
  funext a
  apply Fin.ext
  match a with
  | ⟨0, _⟩ => show win1_2.index t (0 : Fin 2) * 64 + 1 * (x 0).val = (i 0).val; omega
  | ⟨1, _⟩ => show win1_2.index t (1 : Fin 2) * 64 + 1 * (x 1).val = (i 1).val; omega

/-- The second weight window's block is the whole weight matrix. -/
theorem blk3_apply (c : Dev nD) (t : Fin cfg1.N) (x i : S64x64.Idx)
    (h0 : (i 0).val = (x 0).val) (h1 : (i 1).val = (x 1).val) :
    (iblk1 V c 3 t : Vec Ideal S64x64 .f32) x = (V c main_arg7 : S64x64.Idx → EReal) i := by
  obtain ⟨_, _, _, _, _, _, e30, e31, _, _, _, _⟩ := idx_facts t
  unfold iblk1
  rw [View.read_apply]
  show V c main_arg7 _ = V c main_arg7 _
  congr 1
  funext a
  apply Fin.ext
  match a with
  | ⟨0, _⟩ => show win1_3.index t (0 : Fin 2) * 64 + 1 * (x 0).val = (i 0).val; omega
  | ⟨1, _⟩ => show win1_3.index t (1 : Fin 2) * 64 + 1 * (x 1).val = (i 1).val; omega

/-- The bias window's block is the whole bias row. -/
theorem blk4_apply (c : Dev nD) (t : Fin cfg1.N) (x i : S1x64.Idx)
    (h0 : (i 0).val = (x 0).val) (h1 : (i 1).val = (x 1).val) :
    (iblk1 V c 4 t : Vec Ideal S1x64 .f32) x = (V c main_v37 : S1x64.Idx → EReal) i := by
  obtain ⟨_, _, _, _, _, _, _, _, e40, e41, _, _⟩ := idx_facts t
  unfold iblk1
  rw [View.read_apply]
  show V c main_v37 _ = V c main_v37 _
  congr 1
  funext a
  apply Fin.ext
  match a with
  | ⟨0, _⟩ => show win1_4.index t (0 : Fin 2) * 1 + 1 * (x 0).val = (i 0).val; omega
  | ⟨1, _⟩ => show win1_4.index t (1 : Fin 2) * 64 + 1 * (x 1).val = (i 1).val; omega

/-- What point `t` writes back is block `t` of combine of the arrays as the region finds them. -/
theorem flushed_eq (c : Dev nD) (t : Fin cfg1.N) :
    (dat1 (F := Ideal) V c).flushed 5 t = ((cfg1.win 5).blk t).view.read (Elt Ideal)
      (combine (V c main_v36) (V c main_v24) (V c main_arg6) (V c main_arg7) (V c main_v37)) := by
  show (cfg1.win 5).cut (grid1.coords t) ((dat1 (F := Ideal) V c).after 5 t) = _
  rw [after1_5]
  unfold out1_5
  rw [View.canon_unit_zero zero_off]
  simp only [View.ld_unit_zero (S := S10000x64) zero_off, View.ld_unit_zero (S := S64x64) zero_off, View.ld_unit_zero (S := S1x64) zero_off]
  rw [pay1]
  funext j
  rw [View.read_apply]
  obtain ⟨he0, he1⟩ := out_emb t j
  exact combine_row (N := 100000) (n := 10000) (K := 64) (M := 64)
    (V c main_v36) (V c main_v24) (V c main_arg6) (V c main_arg7) (V c main_v37)
    (iblk1 V c 0 t) (iblk1 V c 1 t) (iblk1 V c 2 t) (iblk1 V c 3 t) (iblk1 V c 4 t)
    j (((cfg1.win 5).blk t).view.emb j)
    (fun k => blk0_apply V c t _ _ he0 rfl)
    (fun k => blk1_apply V c t _ _ he0 rfl)
    (fun k => blk2_apply V c t _ _ rfl he1)
    (fun k => blk3_apply V c t _ _ rfl he1)
    (blk4_apply V c t _ _ rfl he1)

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v38).slice (win1_5.rect t)).set ↔ _
  rw [View.set_slice_whole, Rect.mem_set_unit]
  exact Iff.rfl

/-- The ten row blocks tile the output: row `r` is in the block of point `r / 10000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

end Region1

/-- The region's output array, whatever contents `V` the region is entered at. -/
theorem final1 (c : Dev nD) :
    (dat1 (F := Ideal) V c).arrAt 5 cfg1.N = combine (V c main_v36) (V c main_v24) (V c main_arg6) (V c main_arg7) (V c main_v37) :=
  (dat1 (F := Ideal) V c).arrAt_eq_of_cover 5
    (combine (V c main_v36) (V c main_v24) (V c main_arg6) (V c main_arg7) (V c main_v37))
    (fun t _ => Region1.flushed_eq V c t) Region1.cover

end Cert.Sage

end
-- ==== Proof.Region2.lean ====
/-
  Region 2: the output array after the pipelined run is predict of the arrays the region finds at its entry.
  Point `t` of the grid reads rows [10000·t, 10000·(t+1)) of the row-blocked operands and the small operands whole, and
  writes back the same rows of the output; a row of the dense stage depends on that row of the operands only, so what
  a point writes back is the block of the whole-array function, and the grid's blocks tile the output.
-/
import proofs.«177119_j21199958573768_1_alg».proof.Proof.Spec
import proofs.«177119_j21199958573768_1_alg».proof.Proof.Gen.KernelIdeal.Frame
import proofs.«177119_j21199958573768_1_alg».proof.Proof.Payload
import Idealize.ShloMosaic.Lib.Pipeline.Value

noncomputable section

open scoped BigOperators

namespace Cert.Sage

open Cert.KernelIdeal Cert.KernelIdeal.Gen Idealize.ShloMosaic Idealize.ShloMosaic.TcCoe Idealize.ShloMosaic.ValueIdx Idealize.SL.Sem

namespace Region2

/-- The zero block offset, as the constant function. -/
theorem zero_off : (![0, 0] : Fin 2 → Nat) = fun _ => 0 :=
  funext fun a => match a with | ⟨0, _⟩ => rfl | ⟨1, _⟩ => rfl

/-- A pair's prediction reads that pair's row of the embeddings and the small operands only: where a block's row `j 0`
    is the array's row `e 0`, the first layer's weights and bias are the same, and the second layer's agree at the
    columns `j 1` and `e 1`, the predictions at `j` and at `e` agree. -/
theorem predict_row {P p C H : Nat}
    (pair : (⟨2, ![P, C]⟩ : Shape).Idx → EReal) (W1 : (⟨2, ![C, H]⟩ : Shape).Idx → EReal) (b1 : (⟨2, ![1, H]⟩ : Shape).Idx → EReal)
    (W2 : (⟨2, ![H, 1]⟩ : Shape).Idx → EReal) (b2 : (⟨2, ![1, 1]⟩ : Shape).Idx → EReal)
    (pair' : (⟨2, ![p, C]⟩ : Shape).Idx → EReal) (W1' : (⟨2, ![C, H]⟩ : Shape).Idx → EReal) (b1' : (⟨2, ![1, H]⟩ : Shape).Idx → EReal)
    (W2' : (⟨2, ![H, 1]⟩ : Shape).Idx → EReal) (b2' : (⟨2, ![1, 1]⟩ : Shape).Idx → EReal)
    (j : (⟨2, ![p, 1]⟩ : Shape).Idx) (e : (⟨2, ![P, 1]⟩ : Shape).Idx)
    (h0 : ∀ k : Fin C, pair' (ix2 (j 0) k) = pair (ix2 (e 0) k))
    (h1 : ∀ (k : Fin C) (q : Fin H), W1' (ix2 k q) = W1 (ix2 k q))
    (h2 : ∀ q : Fin H, b1' (ix2 0 q) = b1 (ix2 0 q))
    (h3 : ∀ q : Fin H, W2' (ix2 q (j 1)) = W2 (ix2 q (e 1)))
    (h4 : b2' (ix2 0 (j 1)) = b2 (ix2 0 (e 1))) :
    predict pair' W1' b1' W2' b2' j = predict pair W1 b1 W2 b2 e := by
  have hd1 : ∀ q : Fin H, dense pair' W1' (ix2 (j 0) q) = dense pair W1 (ix2 (e 0) q) := fun q =>
    Finset.sum_congr rfl fun k _ => by
      show pair' (ix2 (j 0) k) * W1' (ix2 k q) = pair (ix2 (e 0) k) * W1 (ix2 k q)
      rw [h0 k, h1 k q]
  have hh : ∀ q : Fin H, hidden pair' W1' b1' (ix2 (j 0) q) = hidden pair W1 b1 (ix2 (e 0) q) := fun q => by
    show max (dense pair' W1' (ix2 (j 0) q) + b1' (ix2 0 q)) zeroW = max (dense pair W1 (ix2 (e 0) q) + b1 (ix2 0 q)) zeroW
    rw [hd1 q, h2 q]
  have hd2 : dense (hidden pair' W1' b1') W2' j = dense (hidden pair W1 b1) W2 e :=
    Finset.sum_congr rfl fun q _ => by rw [hh q, h3 q]
  unfold predict
  rw [hd2, h4]

/-- The printed index maps, decided over the grid: the row-blocked window moves with the output window along the rows
    and stays at column block 0, the small windows stay at block (0, 0), and the output's row block index is the point. -/
theorem idx_facts : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every row block of the output is some point's. -/
theorem idx_onto : ∀ q : Fin 20, ∃ t : Fin cfg2.N, win2_5.index t = ![q.val, 0] :=
  (by decide +kernel : ∀ q : Fin 20, ∃ t : Fin grid2.N, win2_5.index t = ![q.val, 0])

/-- Where an element of the output's block at point `t` sits in the array: row `10000·t` plus its row, its own column. -/
theorem out_emb (t : Fin cfg2.N) (j : S10000x1.Idx) :
    ((((cfg2.win 5).blk t).view.emb j) 0).val = 10000 * t.val + (j 0).val
      ∧ ((((cfg2.win 5).blk t).view.emb j) 1).val = (j 1).val := by
  obtain ⟨_, _, _, _, _, _, _, _, _, _, e50, e51⟩ := idx_facts t
  constructor
  · show win2_5.index t (0 : Fin 2) * 10000 + 1 * (j 0).val = _
    omega
  · show win2_5.index t (1 : Fin 2) * 1 + 1 * (j 1).val = _
    omega

end Region2

variable (V : (c : Dev nD) → (b : Ref sig .tc) → Buf (Elt Ideal) ((c : Thread nD τ).loc b))

namespace Region2

/-- The paired embeddings' block at point `t` is rows `10000·t …` of their array. -/
theorem blk0_apply (c : Dev nD) (t : Fin cfg2.N) (x : S10000x128.Idx) (i : S200000x128.Idx)
    (h0 : (i 0).val = 10000 * t.val + (x 0).val) (h1 : (i 1).val = (x 1).val) :
    (iblk2 V c 0 t : Vec Ideal S10000x128 .f32) x = (V c main_v57 : S200000x128.Idx → EReal) i := by
  obtain ⟨e00, e01, _, _, _, _, _, _, _, _, e50, _⟩ := idx_facts t
  unfold iblk2
  rw [View.read_apply]
  show V c main_v57 _ = V c main_v57 _
  congr 1
  funext a
  apply Fin.ext
  match a with
  | ⟨0, _⟩ => show win2_0.index t (0 : Fin 2) * 10000 + 1 * (x 0).val = (i 0).val; omega
  | ⟨1, _⟩ => show win2_0.index t (1 : Fin 2) * 128 + 1 * (x 1).val = (i 1).val; omega

/-- The first layer's weight window's block is the whole weight matrix. -/
theorem blk1_apply (c : Dev nD) (t : Fin cfg2.N) (x i : S128x64.Idx)
    (h0 : (i 0).val = (x 0).val) (h1 : (i 1).val = (x 1).val) :
    (iblk2 V c 1 t : Vec Ideal S128x64 .f32) x = (V c main_arg9 : S128x64.Idx → EReal) i := by
  obtain ⟨_, _, e10, e11, _, _, _, _, _, _, _, _⟩ := idx_facts t
  unfold iblk2
  rw [View.read_apply]
  show V c main_arg9 _ = V c main_arg9 _
  congr 1
  funext a
  apply Fin.ext
  match a with
  | ⟨0, _⟩ => show win2_1.index t (0 : Fin 2) * 128 + 1 * (x 0).val = (i 0).val; omega
  | ⟨1, _⟩ => show win2_1.index t (1 : Fin 2) * 64 + 1 * (x 1).val = (i 1).val; omega

/-- The first layer's bias window's block is the whole bias row. -/
theorem blk2_apply (c : Dev nD) (t : Fin cfg2.N) (x i : S1x64.Idx)
    (h0 : (i 0).val = (x 0).val) (h1 : (i 1).val = (x 1).val) :
    (iblk2 V c 2 t : Vec Ideal S1x64 .f32) x = (V c main_v58 : S1x64.Idx → EReal) i := by
  obtain ⟨_, _, _, _, e20, e21, _, _, _, _, _, _⟩ := idx_facts t
  unfold iblk2
  rw [View.read_apply]
  show V c main_v58 _ = V c main_v58 _
  congr 1
  funext a
  apply Fin.ext
  match a with
  | ⟨0, _⟩ => show win2_2.index t (0 : Fin 2) * 1 + 1 * (x 0).val = (i 0).val; omega
  | ⟨1, _⟩ => show win2_2.index t (1 : Fin 2) * 64 + 1 * (x 1).val = (i 1).val; omega

/-- The second layer's weight window's block is the whole weight column. -/
theorem blk3_apply (c : Dev nD) (t : Fin cfg2.N) (x i : S64x1.Idx)
    (h0 : (i 0).val = (x 0).val) (h1 : (i 1).val = (x 1).val) :
    (iblk2 V c 3 t : Vec Ideal S64x1 .f32) x = (V c main_arg11 : S64x1.Idx → EReal) i := by
  obtain ⟨_, _, _, _, _, _, e30, e31, _, _, _, _⟩ := idx_facts t
  unfold iblk2
  rw [View.read_apply]
  show V c main_arg11 _ = V c main_arg11 _
  congr 1
  funext a
  apply Fin.ext
  match a with
  | ⟨0, _⟩ => show win2_3.index t (0 : Fin 2) * 64 + 1 * (x 0).val = (i 0).val; omega
  | ⟨1, _⟩ => show win2_3.index t (1 : Fin 2) * 1 + 1 * (x 1).val = (i 1).val; omega

/-- The second layer's bias window's block is the whole one-element bias. -/
theorem blk4_apply (c : Dev nD) (t : Fin cfg2.N) (x i : S1x1.Idx)
    (h0 : (i 0).val = (x 0).val) (h1 : (i 1).val = (x 1).val) :
    (iblk2 V c 4 t : Vec Ideal S1x1 .f32) x = (V c main_v59 : S1x1.Idx → EReal) i := by
  obtain ⟨_, _, _, _, _, _, _, _, e40, e41, _, _⟩ := idx_facts t
  unfold iblk2
  rw [View.read_apply]
  show V c main_v59 _ = V c main_v59 _
  congr 1
  funext a
  apply Fin.ext
  match a with
  | ⟨0, _⟩ => show win2_4.index t (0 : Fin 2) * 1 + 1 * (x 0).val = (i 0).val; omega
  | ⟨1, _⟩ => show win2_4.index t (1 : Fin 2) * 1 + 1 * (x 1).val = (i 1).val; omega

/-- What point `t` writes back is block `t` of predict of the arrays as the region finds them. -/
theorem flushed_eq (c : Dev nD) (t : Fin cfg2.N) :
    (dat2 (F := Ideal) V c).flushed 5 t = ((cfg2.win 5).blk t).view.read (Elt Ideal)
      (predict (V c main_v57) (V c main_arg9) (V c main_v58) (V c main_arg11) (V c main_v59)) := by
  show (cfg2.win 5).cut (grid2.coords t) ((dat2 (F := Ideal) V c).after 5 t) = _
  rw [after2_5]
  unfold out2_5
  rw [View.canon_unit_zero zero_off]
  simp only [View.ld_unit_zero (S := S10000x128) zero_off, View.ld_unit_zero (S := S128x64) zero_off,
    View.ld_unit_zero (S := S1x64) zero_off, View.ld_unit_zero (S := S64x1) zero_off, View.ld_unit_zero (S := S1x1) zero_off]
  rw [pay2]
  funext j
  rw [View.read_apply]
  obtain ⟨he0, he1⟩ := out_emb t j
  exact predict_row (P := 200000) (p := 10000) (C := 128) (H := 64)
    (V c main_v57) (V c main_arg9) (V c main_v58) (V c main_arg11) (V c main_v59)
    (iblk2 V c 0 t) (iblk2 V c 1 t) (iblk2 V c 2 t) (iblk2 V c 3 t) (iblk2 V c 4 t)
    j (((cfg2.win 5).blk t).view.emb j)
    (fun k => blk0_apply V c t _ _ he0 rfl)
    (fun k q => blk1_apply V c t _ _ rfl rfl)
    (fun q => blk2_apply V c t _ _ rfl rfl)
    (fun q => blk3_apply V c t _ _ rfl he1)
    (blk4_apply V c t _ _ rfl he1)

/-- An index of the output array is in point `t`'s block iff each coordinate is in the block's range on its axis. -/
theorem mem_blk (t : Fin cfg2.N) (i : S200000x1.Idx) :
    i ∈ ((cfg2.win 5).blk t).view.set ↔ ∀ a : Fin 2, win2_5.index t a * S10000x1.size a ≤ (i a).val
      ∧ (i a).val < win2_5.index t a * S10000x1.size a + S10000x1.size a := by
  show i ∈ ((View.whole main_v60).slice (win2_5.rect t)).set ↔ _
  rw [View.set_slice_whole, Rect.mem_set_unit]
  exact Iff.rfl

/-- The twenty row blocks tile the output: row `r` is in the block of point `r / 10000`. -/
theorem cover (i : S200000x1.Idx) :
    ∃ t : Fin cfg2.N, (cfg2.win 5).flush t = true ∧ i ∈ ((cfg2.win 5).blk t).view.set := by
  have hi0 : (i 0).val < 200000 := (i 0).isLt
  have hi1 : (i 1).val < 1 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 1 ≤ (i 1).val ∧ (i 1).val < win2_5.index t (1 : Fin 2) * 1 + 1
    omega

end Region2

/-- The region's output array, whatever contents `V` the region is entered at. -/
theorem final2 (c : Dev nD) :
    (dat2 (F := Ideal) V c).arrAt 5 cfg2.N = predict (V c main_v57) (V c main_arg9) (V c main_v58) (V c main_arg11) (V c main_v59) :=
  (dat2 (F := Ideal) V c).arrAt_eq_of_cover 5
    (predict (V c main_v57) (V c main_arg9) (V c main_v58) (V c main_arg11) (V c main_v59))
    (fun t _ => Region2.flushed_eq V c t) Region2.cover

end Cert.Sage

end
-- ==== Proof.KValue.lean ====
/-
  What the kernel program's @main leaves in its result buffer.

  @main is seven segments: a stretch of host operations, the first layer's kernel, a stretch, the second layer's
  kernel, a stretch, the predictor's kernel, and a last reshape. The contents of every buffer at each boundary are a
  fold from the launch memory. Read back along that fold: a host stretch leaves in a buffer it writes the stretch's
  operations applied to what the earlier boundary held, and leaves any other buffer alone; a kernel region leaves in
  its output array the whole-array dense stage of the arrays it was entered with, and leaves every buffer that is not
  one of its arrays alone. Composing the seven steps gives the model's `result` of the thirteen arguments.
-/
import proofs.«177119_j21199958573768_1_alg».proof.Proof.Gen.KernelIdeal.Frame
import proofs.«177119_j21199958573768_1_alg».proof.Proof.Model
import proofs.«177119_j21199958573768_1_alg».proof.Proof.Region0
import proofs.«177119_j21199958573768_1_alg».proof.Proof.Region1
import proofs.«177119_j21199958573768_1_alg».proof.Proof.Region2
import Idealize.ShloMosaic.Lib.StableHlo.Run

set_option maxRecDepth 16384

noncomputable section

namespace Cert.Sage

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A buffer that no operation of a host stretch writes keeps its contents across the stretch. -/
macro "host_pass" ops:ident : tactic => `(tactic|
  exact StableHlo.after_of_forall_not_mem (b := _) _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Before the first region -/

theorem W1_arg0 (c : Dev nD) : W1 m ρ c (Proc.devRef .tc main_arg0) = m ((c : Thread nD τ).loc main_arg0) := by
  host_pass hostOps0
theorem W1_arg3 (c : Dev nD) : W1 m ρ c (Proc.devRef .tc main_arg3) = m ((c : Thread nD τ).loc main_arg3) := by
  host_pass hostOps0
theorem W1_arg4 (c : Dev nD) : W1 m ρ c (Proc.devRef .tc main_arg4) = m ((c : Thread nD τ).loc main_arg4) := by
  host_pass hostOps0

theorem W1_v1 (c : Dev nD) : W1 m ρ c (Proc.devRef .tc main_v1) = edgeRow0 (m ((c : Thread nD τ).loc main_arg1)) := by
  show StableHlo.after hostOps0 (W0 m ρ c) (Proc.devRef .tc main_v1) = _
  dsimp only [hostOps0]
  after_results
  rfl
theorem W1_v3 (c : Dev nD) : W1 m ρ c (Proc.devRef .tc main_v3) = edgeRow1 (m ((c : Thread nD τ).loc main_arg1)) := by
  show StableHlo.after hostOps0 (W0 m ρ c) (Proc.devRef .tc main_v3) = _
  dsimp only [hostOps0]
  after_results
  rfl
theorem W1_v10 (c : Dev nD) : W1 m ρ c (Proc.devRef .tc main_v10) = cntCol (m ((c : Thread nD τ).loc main_arg1)) := by
  show StableHlo.after hostOps0 (W0 m ρ c) (Proc.devRef .tc main_v10) = _
  dsimp only [hostOps0]
  after_results
  rfl
set_option maxHeartbeats 2000000 in
theorem W1_v22 (c : Dev nD) : W1 m ρ c (Proc.devRef .tc main_v22)
    = meanAgg (m ((c : Thread nD τ).loc main_arg0)) (m ((c : Thread nD τ).loc main_arg1)) := by
  show StableHlo.after hostOps0 (W0 m ρ c) (Proc.devRef .tc main_v22) = _
  dsimp only [hostOps0]
  after_results_simp
  rfl
theorem W1_v23 (c : Dev nD) : W1 m ρ c (Proc.devRef .tc main_v23)
    = shapeCast S1x64 (m ((c : Thread nD τ).loc main_arg5)) shapeCasts_S64_S1x64 := by
  show StableHlo.after hostOps0 (W0 m ρ c) (Proc.devRef .tc main_v23) = _
  dsimp only [hostOps0]
  after_results
  rfl

/-! ## Across the first region -/

theorem W2_v24 (c : Dev nD) : W2 m ρ c (Proc.devRef .tc main_v24) = layer1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ?_
  rw [final0 (V1 m ρ) c]
  show combineRelu (W1 m ρ c (Proc.devRef .tc main_v22)) (W1 m ρ c (Proc.devRef .tc main_arg0)) (W1 m ρ c (Proc.devRef .tc main_arg3))
    (W1 m ρ c (Proc.devRef .tc main_arg4)) (W1 m ρ c (Proc.devRef .tc main_v23)) = _
  rw [W1_v22, W1_arg0, W1_arg3, W1_arg4, W1_v23]
  rfl
theorem W2_v1 (c : Dev nD) : W2 m ρ c (Proc.devRef .tc main_v1) = edgeRow0 (m ((c : Thread nD τ).loc main_arg1)) :=
  (W2_of_ne m ρ c main_v1 (by decide)).trans (W1_v1 m ρ c)
theorem W2_v3 (c : Dev nD) : W2 m ρ c (Proc.devRef .tc main_v3) = edgeRow1 (m ((c : Thread nD τ).loc main_arg1)) :=
  (W2_of_ne m ρ c main_v3 (by decide)).trans (W1_v3 m ρ c)
theorem W2_v10 (c : Dev nD) : W2 m ρ c (Proc.devRef .tc main_v10) = cntCol (m ((c : Thread nD τ).loc main_arg1)) :=
  (W2_of_ne m ρ c main_v10 (by decide)).trans (W1_v10 m ρ c)
theorem W2_arg6 (c : Dev nD) : W2 m ρ c (Proc.devRef .tc main_arg6) = m ((c : Thread nD τ).loc main_arg6) :=
  (W2_of_ne m ρ c main_arg6 (by decide)).trans (by host_pass hostOps0)
theorem W2_arg7 (c : Dev nD) : W2 m ρ c (Proc.devRef .tc main_arg7) = m ((c : Thread nD τ).loc main_arg7) :=
  (W2_of_ne m ρ c main_arg7 (by decide)).trans (by host_pass hostOps0)
theorem W2_arg8 (c : Dev nD) : W2 m ρ c (Proc.devRef .tc main_arg8) = m ((c : Thread nD τ).loc main_arg8) :=
  (W2_of_ne m ρ c main_arg8 (by decide)).trans (by host_pass hostOps0)

/-! ## Between the first and the second region -/

set_option maxHeartbeats 2000000 in
theorem W3_v36 (c : Dev nD) : W3 m ρ c (Proc.devRef .tc main_v36) = meanAgg (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v36) = _
  dsimp only [hostOps1]
  after_results_simp
  rw [W2_v1, W2_v3, W2_v10, W2_v24]
  rfl
theorem W3_v37 (c : Dev nD) : W3 m ρ c (Proc.devRef .tc main_v37) = shapeCast S1x64 (m ((c : Thread nD τ).loc main_arg8)) shapeCasts_S64_S1x64 := by
  show StableHlo.after hostOps1 (W2 m ρ c) (Proc.devRef .tc main_v37) = _
  dsimp only [hostOps1]
  after_results
  rw [W2_arg8]
  rfl
theorem W3_v24 (c : Dev nD) : W3 m ρ c (Proc.devRef .tc main_v24) = layer1 (m ((c : Thread nD τ).loc main_arg0)) (m ((c : Thread nD τ).loc main_arg1)) (m ((c : Thread nD τ).loc main_arg3)) (m ((c : Thread nD τ).loc main_arg4)) (m ((c : Thread nD τ).loc main_arg5)) :=
  (by host_pass hostOps1 : W3 m ρ c (Proc.devRef .tc main_v24) = W2 m ρ c (Proc.devRef .tc main_v24)).trans (W2_v24 m ρ c)
theorem W3_arg6 (c : Dev nD) : W3 m ρ c (Proc.devRef .tc main_arg6) = m ((c : Thread nD τ).loc main_arg6) :=
  (by host_pass hostOps1 : W3 m ρ c (Proc.devRef .tc main_arg6) = W2 m ρ c (Proc.devRef .tc main_arg6)).trans (W2_arg6 m ρ c)
theorem W3_arg7 (c : Dev nD) : W3 m ρ c (Proc.devRef .tc main_arg7) = m ((c : Thread nD τ).loc main_arg7) :=
  (by host_pass hostOps1 : W3 m ρ c (Proc.devRef .tc main_arg7) = W2 m ρ c (Proc.devRef .tc main_arg7)).trans (W2_arg7 m ρ c)

/-! ## Across the second region -/

theorem W4_v38 (c : Dev nD) : W4 m ρ c (Proc.devRef .tc main_v38) = layer2 (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) := by
  refine (W4_arr m ρ c 5).trans ?_
  rw [final1 (V3 m ρ) c]
  show combine (W3 m ρ c (Proc.devRef .tc main_v36)) (W3 m ρ c (Proc.devRef .tc main_v24)) (W3 m ρ c (Proc.devRef .tc main_arg6))
    (W3 m ρ c (Proc.devRef .tc main_arg7)) (W3 m ρ c (Proc.devRef .tc main_v37)) = _
  rw [W3_v36, W3_v24, W3_arg6, W3_arg7, W3_v37]
  rfl
theorem W4_arg2 (c : Dev nD) : W4 m ρ c (Proc.devRef .tc main_arg2) = m ((c : Thread nD τ).loc main_arg2) :=
  (W4_of_ne m ρ c main_arg2 (by decide)).trans <|
    (by host_pass hostOps1 : W3 m ρ c (Proc.devRef .tc main_arg2) = W2 m ρ c (Proc.devRef .tc main_arg2)).trans <|
      (W2_of_ne m ρ c main_arg2 (by decide)).trans (by host_pass hostOps0)
theorem W4_arg9 (c : Dev nD) : W4 m ρ c (Proc.devRef .tc main_arg9) = m ((c : Thread nD τ).loc main_arg9) :=
  (W4_of_ne m ρ c main_arg9 (by decide)).trans <|
    (by host_pass hostOps1 : W3 m ρ c (Proc.devRef .tc main_arg9) = W2 m ρ c (Proc.devRef .tc main_arg9)).trans <|
      (W2_of_ne m ρ c main_arg9 (by decide)).trans (by host_pass hostOps0)
theorem W4_arg10 (c : Dev nD) : W4 m ρ c (Proc.devRef .tc main_arg10) = m ((c : Thread nD τ).loc main_arg10) :=
  (W4_of_ne m ρ c main_arg10 (by decide)).trans <|
    (by host_pass hostOps1 : W3 m ρ c (Proc.devRef .tc main_arg10) = W2 m ρ c (Proc.devRef .tc main_arg10)).trans <|
      (W2_of_ne m ρ c main_arg10 (by decide)).trans (by host_pass hostOps0)
theorem W4_arg11 (c : Dev nD) : W4 m ρ c (Proc.devRef .tc main_arg11) = m ((c : Thread nD τ).loc main_arg11) :=
  (W4_of_ne m ρ c main_arg11 (by decide)).trans <|
    (by host_pass hostOps1 : W3 m ρ c (Proc.devRef .tc main_arg11) = W2 m ρ c (Proc.devRef .tc main_arg11)).trans <|
      (W2_of_ne m ρ c main_arg11 (by decide)).trans (by host_pass hostOps0)
theorem W4_arg12 (c : Dev nD) : W4 m ρ c (Proc.devRef .tc main_arg12) = m ((c : Thread nD τ).loc main_arg12) :=
  (W4_of_ne m ρ c main_arg12 (by decide)).trans <|
    (by host_pass hostOps1 : W3 m ρ c (Proc.devRef .tc main_arg12) = W2 m ρ c (Proc.devRef .tc main_arg12)).trans <|
      (W2_of_ne m ρ c main_arg12 (by decide)).trans (by host_pass hostOps0)

/-! ## Between the second region and the predictor -/

set_option maxHeartbeats 8000000 in
theorem W5_v57 (c : Dev nD) : W5 m ρ c (Proc.devRef .tc main_v57) = pairOf (layer2 (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2)) := by
  show StableHlo.after hostOps2 (W4 m ρ c) (Proc.devRef .tc main_v57) = _
  dsimp only [hostOps2]
  after_results
  rw [W4_v38, W4_arg2]
  rfl
theorem W5_v58 (c : Dev nD) : W5 m ρ c (Proc.devRef .tc main_v58) = shapeCast S1x64 (m ((c : Thread nD τ).loc main_arg10)) shapeCasts_S64_S1x64 := by
  show StableHlo.after hostOps2 (W4 m ρ c) (Proc.devRef .tc main_v58) = _
  dsimp only [hostOps2]
  after_results
  rw [W4_arg10]
  rfl
theorem W5_v59 (c : Dev nD) : W5 m ρ c (Proc.devRef .tc main_v59) = shapeCast S1x1 (m ((c : Thread nD τ).loc main_arg12)) shapeCasts_S1_S1x1 := by
  show StableHlo.after hostOps2 (W4 m ρ c) (Proc.devRef .tc main_v59) = _
  dsimp only [hostOps2]
  after_results
  rw [W4_arg12]
  rfl
theorem W5_arg9 (c : Dev nD) : W5 m ρ c (Proc.devRef .tc main_arg9) = m ((c : Thread nD τ).loc main_arg9) :=
  (by host_pass hostOps2 : W5 m ρ c (Proc.devRef .tc main_arg9) = W4 m ρ c (Proc.devRef .tc main_arg9)).trans (W4_arg9 m ρ c)
theorem W5_arg11 (c : Dev nD) : W5 m ρ c (Proc.devRef .tc main_arg11) = m ((c : Thread nD τ).loc main_arg11) :=
  (by host_pass hostOps2 : W5 m ρ c (Proc.devRef .tc main_arg11) = W4 m ρ c (Proc.devRef .tc main_arg11)).trans (W4_arg11 m ρ c)

/-! ## Across the predictor, and the result -/

theorem W6_v60 (c : Dev nD) : W6 m ρ c (Proc.devRef .tc main_v60) = predict (pairOf (layer2 (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2))) (m ((c : Thread nD τ).loc main_arg9)) (shapeCast S1x64 (m ((c : Thread nD τ).loc main_arg10)) shapeCasts_S64_S1x64) (m ((c : Thread nD τ).loc main_arg11)) (shapeCast S1x1 (m ((c : Thread nD τ).loc main_arg12)) shapeCasts_S1_S1x1) := by
  refine (W6_arr m ρ c 5).trans ?_
  rw [final2 (V5 m ρ) c]
  show predict (W5 m ρ c (Proc.devRef .tc main_v57)) (W5 m ρ c (Proc.devRef .tc main_arg9)) (W5 m ρ c (Proc.devRef .tc main_v58))
    (W5 m ρ c (Proc.devRef .tc main_arg11)) (W5 m ρ c (Proc.devRef .tc main_v59)) = _
  rw [W5_v57, W5_arg9, W5_v58, W5_arg11, W5_v59]

/-- What the kernel's @main leaves in its result buffer: the model's function of the thirteen arguments. -/
theorem W7_v61 (c : Dev nD) : W7 m ρ c (Proc.devRef .tc main_v61) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W6 m ρ c) (Proc.devRef .tc main_v61) = _
  dsimp only [hostOps3]
  after_results
  rw [W6_v60]
  rfl

end Cert.Sage

end
-- ==== Proof.RefValue.lean ====
/-
  The reference's result is the model's function of the thirteen arguments.

  The reference computes each dense stage with whole-array products: a product of an N × K array with a K × M matrix is,
  at (p, q), the sum over k of the entries (p, k) and (k, q); a bias vector laid out as a row and broadcast down the
  rows reads its entry at the column; `max · 0` is taken against a zero splat; the logistic function is spelt
  `1 / (1 + exp (−logit))`. So each stage is, index by index, the specification's `combineRelu`, `combine` and
  `predict`, and around the stages the reference applies the same gathers, scatter-adds, division and concatenation
  to the same operands as the model does.
-/
import proofs.«177119_j21199958573768_1_alg».proof.Proof.Gen.ReferenceIdeal.Run
import proofs.«177119_j21199958573768_1_alg».proof.Proof.Gen.ReferenceIdeal.Read
import proofs.«177119_j21199958573768_1_alg».proof.Proof.Model
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Ref

open Cert.ReferenceIdeal Cert.ReferenceIdeal.Gen Cert.ReferenceIdeal.Read Cert.Sage
open Idealize.ShloMosaic Idealize.ShloMosaic.TcCoe Idealize.ShloMosaic.ValueIdx Idealize.SL.Sem

/-! ## A whole-array product at an index -/

theorem dot_nodes (l : FVec Ideal S100000x64 .f32) (r : FVec Ideal S64x64 .f32) :
    Host.dotGeneral (F := Ideal) dot_S100000x64_S64x64_S100000x64_1_0_0_1_n_n none l r = dense l r := by
  funext i
  refine (val_main_v24_apply l r i).trans ?_
  unfold dense
  refine Finset.sum_congr rfl fun k _ => ?_
  have el : lidx_main_v24 i k = ix2 (n0 := 100000) (n1 := 64) (i 0) k :=
    funext fun a => Fin.ext (by match a with | ⟨0, _⟩ => rfl | ⟨1, _⟩ => rfl)
  have er : ridx_main_v24 i k = ix2 (n0 := 64) (n1 := 64) k (i 1) :=
    funext fun a => Fin.ext (by match a with | ⟨0, _⟩ => rfl | ⟨1, _⟩ => rfl)
  rw [el, er]

theorem dot_pairs (l : FVec Ideal S200000x128 .f32) (r : FVec Ideal S128x64 .f32) :
    Host.dotGeneral (F := Ideal) dot_S200000x128_S128x64_S200000x64_1_0_0_1_n_n none l r = dense l r := by
  funext i
  simp only [Host.dotGeneral]
  rw [Ideal.dotGeneral_apply, ← Equiv.sum_comp (ValueIdx.contrEquiv1 dot_S200000x128_S128x64_S200000x64_1_0_0_1_n_n 128 rfl rfl).symm]
  unfold dense
  refine Finset.sum_congr rfl fun k _ => ?_
  have hk := ValueIdx.contrEquiv1_symm_val dot_S200000x128_S128x64_S200000x64_1_0_0_1_n_n 128 rfl rfl k
  have el : dot_S200000x128_S128x64_S200000x64_1_0_0_1_n_n.lhsIdx i ((ValueIdx.contrEquiv1 dot_S200000x128_S128x64_S200000x64_1_0_0_1_n_n 128 rfl rfl).symm k)
      = ix2 (n0 := 200000) (n1 := 128) (i 0) k := funext fun a => Fin.ext (by
    match a with
    | ⟨0, _⟩ => exact lhs_main_v74_0 _ _
    | ⟨1, _⟩ => exact (lhs_main_v74_1 _ _).trans hk)
  have er : dot_S200000x128_S128x64_S200000x64_1_0_0_1_n_n.rhsIdx i ((ValueIdx.contrEquiv1 dot_S200000x128_S128x64_S200000x64_1_0_0_1_n_n 128 rfl rfl).symm k)
      = ix2 (n0 := 128) (n1 := 64) k (i 1) := funext fun a => Fin.ext (by
    match a with
    | ⟨0, _⟩ => exact (rhs_main_v74_0 _ _).trans hk
    | ⟨1, _⟩ => exact rhs_main_v74_1 _ _)
  rw [el, er]

theorem dot_logit (l : FVec Ideal S200000x64 .f32) (r : FVec Ideal S64x1 .f32) :
    Host.dotGeneral (F := Ideal) dot_S200000x64_S64x1_S200000x1_1_0_0_1_n_n none l r = dense l r := by
  funext i
  simp only [Host.dotGeneral]
  rw [Ideal.dotGeneral_apply, ← Equiv.sum_comp (ValueIdx.contrEquiv1 dot_S200000x64_S64x1_S200000x1_1_0_0_1_n_n 64 rfl rfl).symm]
  unfold dense
  refine Finset.sum_congr rfl fun k _ => ?_
  have hk := ValueIdx.contrEquiv1_symm_val dot_S200000x64_S64x1_S200000x1_1_0_0_1_n_n 64 rfl rfl k
  have el : dot_S200000x64_S64x1_S200000x1_1_0_0_1_n_n.lhsIdx i ((ValueIdx.contrEquiv1 dot_S200000x64_S64x1_S200000x1_1_0_0_1_n_n 64 rfl rfl).symm k)
      = ix2 (n0 := 200000) (n1 := 64) (i 0) k := funext fun a => Fin.ext (by
    match a with
    | ⟨0, _⟩ => exact lhs_main_v79_0 _ _
    | ⟨1, _⟩ => exact (lhs_main_v79_1 _ _).trans hk)
  have er : dot_S200000x64_S64x1_S200000x1_1_0_0_1_n_n.rhsIdx i ((ValueIdx.contrEquiv1 dot_S200000x64_S64x1_S200000x1_1_0_0_1_n_n 64 rfl rfl).symm k)
      = ix2 (n0 := 64) (n1 := 1) k (i 1) := funext fun a => Fin.ext (by
    match a with
    | ⟨0, _⟩ => exact (rhs_main_v79_0 _ _).trans hk
    | ⟨1, _⟩ => exact rhs_main_v79_1 _ _)
  rw [el, er]

/-! ## A bias vector as a broadcast row, and the zero splat -/

/-- The node layers' bias, broadcast down 100000 rows, reads the vector at the column: the same entry the vector
    reshaped to one row holds there. -/
theorem bias_nodes (b : FVec Ideal S64 .f32) (i : S100000x64.Idx) :
    broadcastInDim S100000x64 ![0, 1] bcast_S1x64_S100000x64_0_1 (broadcastInDim S1x64 ![1] bcast_S64_S1x64_1 b) i
      = shapeCast Cert.KernelIdeal.S1x64 b Cert.KernelIdeal.Gen.shapeCasts_S64_S1x64 (ix2 (n0 := 1) (n1 := 64) 0 (i 1)) := by
  show val_main_v27 (F := Ideal) b i = _
  rw [val_main_v27_apply, val_main_v26_apply]
  refine (congrArg b ?_).trans (shapeCast_a_1a_apply (a := 64) b _ (0 : Fin 1) (i 1)).symm
  exact funext fun a => Fin.ext (by
    match a with
    | ⟨0, _⟩ => rfl)

/-- The predictor's hidden bias, broadcast down 200000 rows. -/
theorem bias_hidden (b : FVec Ideal S64 .f32) (i : S200000x64.Idx) :
    broadcastInDim S200000x64 ![0, 1] bcast_S1x64_S200000x64_0_1 (broadcastInDim S1x64 ![1] bcast_S64_S1x64_1 b) i
      = shapeCast Cert.KernelIdeal.S1x64 b Cert.KernelIdeal.Gen.shapeCasts_S64_S1x64 (ix2 (n0 := 1) (n1 := 64) 0 (i 1)) := by
  show val_main_v76 (F := Ideal) b i = _
  rw [val_main_v76_apply, val_main_v75_apply]
  refine (congrArg b ?_).trans (shapeCast_a_1a_apply (a := 64) b _ (0 : Fin 1) (i 1)).symm
  exact funext fun a => Fin.ext (by
    match a with
    | ⟨0, _⟩ => rfl)

/-- The predictor's output bias, a single number broadcast down 200000 rows. -/
theorem bias_logit (b : FVec Ideal S1 .f32) (i : S200000x1.Idx) :
    broadcastInDim S200000x1 ![0, 1] bcast_S1x1_S200000x1_0_1 (broadcastInDim S1x1 ![1] bcast_S1_S1x1_1 b) i
      = shapeCast Cert.KernelIdeal.S1x1 b Cert.KernelIdeal.Gen.shapeCasts_S1_S1x1 (ix2 (n0 := 1) (n1 := 1) 0 (i 1)) := by
  show val_main_v81 (F := Ideal) b i = _
  rw [val_main_v81_apply, val_main_v80_apply]
  refine (congrArg b ?_).trans (shapeCast_a_1a_apply (a := 1) b _ (0 : Fin 1) (i 1)).symm
  exact funext fun a => Fin.ext (by
    match a with
    | ⟨0, _⟩ =>
      have h2 : (i 1).val < 1 := (i 1).isLt
      show 0 = (i 1).val
      omega)

/-! ## The three dense stages, whole -/

/-- The first layer's dense stage as the reference spells it is the specification's `combineRelu`. -/
theorem ref_layer1 (mean x : FVec Ideal S100000x64 .f32) (Wl Wr : FVec Ideal S64x64 .f32) (b : FVec Ideal S64 .f32) :
    maximumf
        (addf (addf (Host.dotGeneral (F := Ideal) dot_S100000x64_S64x64_S100000x64_1_0_0_1_n_n none mean Wl)
            (Host.dotGeneral (F := Ideal) dot_S100000x64_S64x64_S100000x64_1_0_0_1_n_n none x Wr))
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = combineRelu mean x Wl Wr (shapeCast Cert.KernelIdeal.S1x64 b Cert.KernelIdeal.Gen.shapeCasts_S64_S1x64) := by
  rw [dot_nodes, dot_nodes]
  funext i
  unfold combineRelu combine
  show max (dense mean Wl i + dense x Wr i
      + broadcastInDim S100000x64 ![0, 1] bcast_S1x64_S100000x64_0_1 (broadcastInDim S1x64 ![1] bcast_S64_S1x64_1 b) i)
      (Ideal.ofBits .f32 0x00000000#32) = _
  rw [bias_nodes]

/-- The second layer's dense stage as the reference spells it is the specification's `combine`. -/
theorem ref_layer2 (mean x : FVec Ideal S100000x64 .f32) (Wl Wr : FVec Ideal S64x64 .f32) (b : FVec Ideal S64 .f32) :
    addf (addf (Host.dotGeneral (F := Ideal) dot_S100000x64_S64x64_S100000x64_1_0_0_1_n_n none mean Wl)
          (Host.dotGeneral (F := Ideal) dot_S100000x64_S64x64_S100000x64_1_0_0_1_n_n none x Wr))
        (broadcastInDim S100000x64 ![0, 1] bcast_S1x64_S100000x64_0_1 (broadcastInDim S1x64 ![1] bcast_S64_S1x64_1 b))
      = combine mean x Wl Wr (shapeCast Cert.KernelIdeal.S1x64 b Cert.KernelIdeal.Gen.shapeCasts_S64_S1x64) := by
  rw [dot_nodes, dot_nodes]
  funext i
  unfold combine
  show dense mean Wl i + dense x Wr i
      + broadcastInDim S100000x64 ![0, 1] bcast_S1x64_S100000x64_0_1 (broadcastInDim S1x64 ![1] bcast_S64_S1x64_1 b) i = _
  rw [bias_nodes]

/-- The link predictor as the reference spells it is the specification's `predict`. -/
theorem ref_predict (pair : FVec Ideal S200000x128 .f32) (W1 : FVec Ideal S128x64 .f32) (b1 : FVec Ideal S64 .f32)
    (W2 : FVec Ideal S64x1 .f32) (b2 : FVec Ideal S1 .f32) :
    Host.divf (broadcastInDim S200000x1 ![] bcast_S_S200000x1 (constant (F := Ideal) S_ .f32 0x3F800000#32))
        (addf (broadcastInDim S200000x1 ![] bcast_S_S200000x1 (constant (F := Ideal) S_ .f32 0x3F800000#32))
          (Host.exp (Host.negf (addf
            (Host.dotGeneral (F := Ideal) dot_S200000x64_S64x1_S200000x1_1_0_0_1_n_n none
              (maximumf
                (addf (Host.dotGeneral (F := Ideal) dot_S200000x128_S128x64_S200000x64_1_0_0_1_n_n none pair W1)
                  (broadcastInDim S200000x64 ![0, 1] bcast_S1x64_S200000x64_0_1 (broadcastInDim S1x64 ![1] bcast_S64_S1x64_1 b1)))
                (broadcastInDim S200000x64 ![] bcast_S_S200000x64 (constant (F := Ideal) S_ .f32 0x00000000#32)))
              W2)
            (broadcastInDim S200000x1 ![0, 1] bcast_S1x1_S200000x1_0_1 (broadcastInDim S1x1 ![1] bcast_S1_S1x1_1 b2))))))
      = predict pair W1 (shapeCast Cert.KernelIdeal.S1x64 b1 Cert.KernelIdeal.Gen.shapeCasts_S64_S1x64) W2
          (shapeCast Cert.KernelIdeal.S1x1 b2 Cert.KernelIdeal.Gen.shapeCasts_S1_S1x1) := by
  have hZ : maximumf
        (addf (Host.dotGeneral (F := Ideal) dot_S200000x128_S128x64_S200000x64_1_0_0_1_n_n none pair W1)
          (broadcastInDim S200000x64 ![0, 1] bcast_S1x64_S200000x64_0_1 (broadcastInDim S1x64 ![1] bcast_S64_S1x64_1 b1)))
        (broadcastInDim S200000x64 ![] bcast_S_S200000x64 (constant (F := Ideal) S_ .f32 0x00000000#32))
      = hidden pair W1 (shapeCast Cert.KernelIdeal.S1x64 b1 Cert.KernelIdeal.Gen.shapeCasts_S64_S1x64) := by
    rw [dot_pairs]
    funext j
    unfold hidden
    show max (dense pair W1 j
        + broadcastInDim S200000x64 ![0, 1] bcast_S1x64_S200000x64_0_1 (broadcastInDim S1x64 ![1] bcast_S64_S1x64_1 b1) j)
        (Ideal.ofBits .f32 0x00000000#32) = _
    rw [bias_hidden]
  rw [hZ, dot_logit]
  funext i
  unfold predict
  show Ideal.div (Ideal.ofBits .f32 0x3F800000#32) (Ideal.ofBits .f32 0x3F800000#32
      + Ideal.exp (-(dense (hidden pair W1 (shapeCast Cert.KernelIdeal.S1x64 b1 Cert.KernelIdeal.Gen.shapeCasts_S64_S1x64)) W2 i
        + broadcastInDim S200000x1 ![0, 1] bcast_S1x1_S200000x1_0_1 (broadcastInDim S1x1 ![1] bcast_S1_S1x1_1 b2) i))) = _
  rw [bias_logit]

/-! ## The reference's result -/

set_option maxRecDepth 16384 in
set_option maxHeartbeats 4000000 in
/-- The reference run's result term is the model's function of the thirteen arguments. -/
theorem ref_result (m : (ℓ : Loc nD τ sig) → Buf (Elt Ideal) ℓ) (c : Dev nD) :
    Value.res_main_v89 (F := Ideal) m c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Value.res_main_v89
  rw [ref_layer1, ref_layer2, ref_predict]
  rfl

end Cert.Sage.Ref

end
-- ==== Proof.lean ====
/-
  A two-layer GraphSAGE encoder with a link predictor, computed by three pipelined kernels among the host's gathers
  and scatter-adds, against the same network written with whole-array operations.

  Both programs aggregate neighbour features the same way (gather the source rows, scatter-add them at the destination
  nodes, divide by `max in-degree 1`) and gather the candidate pairs' embeddings the same way; they differ only in how
  the three dense stages are computed. The kernels compute a stage 10000 rows at a time, casting the operands to a
  narrower float format before each matrix product; over the extended reals a change of format is the identity and a
  row of a dense stage depends on that row of its operands only, so each kernel's output array is the whole-array
  stage (`combineRelu`, `combine`, `predict` of the specification) of the arrays it is entered with. The reference's
  whole-array products, broadcast biases, `max · 0` and `1 / (1 + exp (−logit))` are the same three functions index
  by index. Hence both runs end at one and the same term, `Cert.Sage.result` of the thirteen arguments. No law of the
  extended reals beyond `0 − x = −x` is used, and the precondition is never opened.

  The frames of the two kernel programs are the generated ones; the reference's frame is its generated run with the
  result forgotten; the idealisation ledger is empty.
-/
import proofs.«177119_j21199958573768_1_alg».proof.Defs
import proofs.«177119_j21199958573768_1_alg».proof.Proof.Gen.Kernel
import proofs.«177119_j21199958573768_1_alg».proof.Proof.Gen.Kernel.Frame
import proofs.«177119_j21199958573768_1_alg».proof.Proof.Gen.KernelIdeal
import proofs.«177119_j21199958573768_1_alg».proof.Proof.Gen.KernelIdeal.Frame
import proofs.«177119_j21199958573768_1_alg».proof.Proof.Gen.ReferenceIdeal
import proofs.«177119_j21199958573768_1_alg».proof.Proof.Gen.ReferenceIdeal.Run
import proofs.«177119_j21199958573768_1_alg».proof.Proof.Gen.Pre_finite_inputs
import proofs.«177119_j21199958573768_1_alg».proof.Proof.KRun
import proofs.«177119_j21199958573768_1_alg».proof.Proof.KValue
import proofs.«177119_j21199958573768_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the link probabilities `Cert.Sage.result` of the arguments: the kernel program's by the fold
    through its segments, the reference's by its composed term read stage by stage, from memories that agree on the
    arguments. -/
theorem algebraic : Cert.algebraic_KernelIdeal_ReferenceIdeal := by
  intro m ρ m' ρ' _ hagree
  refine ⟨fun c => Cert.Sage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Sage.W7_v61 m ρ c), (h c).2⟩)
      (Cert.KernelIdeal.RunAll.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.Sage.Ref.ref_result m' c, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
